-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x2048 : Shape := ⟨2, ![1024, 2048]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x2048 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S1024x2048 .f32) (main_arg3 : FVec F S1024 .f32) (main_arg4 : FVec F S1024x2048 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x2048x1024 : Shape := ⟨3, ![8, 2048, 1024]⟩
abbrev S1024x2048 : Shape := ⟨2, ![1024, 2048]⟩
abbrev S1024 : Shape := ⟨1, ![1024]⟩
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 24
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x2048x1024_S16384x1024 : S8x2048x1024.ShapeCasts S16384x1024
  slices_S1024x2048_S1024x1024_0_0 : S1024x2048.Slices ![0, 0] S1024x1024
  transposes_S1024x1024_S1024x1024_1_0 : S1024x1024.Transposes [1, 0] S1024x1024
  bitsLt_bf16_f32 : FTy.bits .bf16 < FTy.bits .f32
  slices_S1024x2048_S1024x1024_0_1024 : S1024x2048.Slices ![0, 1024] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S8x2048x1024 : S16384x1024.ShapeCasts S8x2048x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .f32 = 32 ∨ (Rect.block (s := S16384x1024) S512x1024.size (cc0_transform_8 i) (hinb0_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x2048 : Shape := ⟨2, ![1024, 2048]⟩
abbrev S1024 : Shape := ⟨1, ![1024]⟩
abbrev S8x2048x2048 : Shape := ⟨3, ![8, 2048, 2048]⟩
abbrev S1x1x1024 : Shape := ⟨3, ![1, 1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S8x2048x2048, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x2048, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  concatenates_S8x2048x1024_S8x2048x1024_S8x2048x2048_d2 : Shape.Concatenates [S8x2048x1024, S8x2048x1024] S8x2048x2048 2
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  dot_S8x2048x2048_S1024x2048_S8x2048x1024_2_1_01_0_n_n_wf : DotDims.WF S8x2048x2048 S1024x2048 S8x2048x1024 [2] [1] [0, 1] [0] [] []

variable [Facts₀]

def dot_S8x2048x2048_S1024x2048_S8x2048x1024_2_1_01_0_n_n : DotDims S8x2048x2048 S1024x2048 S8x2048x1024 where
  lhsContracting := [2]
  rhsContracting := [1]
  lhsNonContracting := [0, 1]
  rhsNonContracting := [0]
  lhsBatch := []
  rhsBatch := []
  wf := dot_S8x2048x2048_S1024x2048_S8x2048x1024_2_1_01_0_n_n_wf

class Facts : Prop extends Facts₀ where

variable [Facts]
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Cell.lean ====
/-
  The minimal gated recurrent cell, one row of the batch at a time, on the extended reals.

  For one row with input features xr and previous state hr (1024 entries each), weight rows Ux n, Uh n (the input
  half and the state half of the forget layer's row n) and bias b:
      gate n = 1 / (1 + e^-(Σ_k xr k · Ux n k + Σ_k hr k · Uh n k + b n))
  the candidate uses the gated state gate k · hr k in place of hr k, with its own weights Vx, Vh and bias d:
      cand n = tanh (Σ_k xr k · Vx n k + Σ_k (gate k · hr k) · Vh n k + d n)
  and the new state is the convex-looking mix
      cell n = (1 - gate n) · hr n + gate n · cand n.
  Both programs compute exactly this; they differ in how the two halves of a weight row are fetched. One program
  multiplies the joined row (xr ‖ hr), 2048 long, by the whole weight row; the other keeps the halves apart. The law
  joining them is that a sum over 2048 indices is the sum over the first 1024 plus the sum over the last 1024: it
  needs only that addition of extended reals is commutative and associative, so no finiteness is used anywhere.
-/
import Idealize.ShloMosaic.PureOps.Ideal
import Idealize.ShloMosaic.PureOps.IdealRules
import Idealize.ShloMosaic.Lib.ValueIdx
import Mathlib.Algebra.BigOperators.Fin

noncomputable section

open scoped BigOperators

namespace Cert.MGru

open Idealize.ShloMosaic

/-- The float literal 1.0 (the word 0x3F800000), as both programs read it. -/
abbrev one : EReal := FloatOps.ofBits (F := Ideal) .f32 0x3F800000#32

/-- Position k of the first half of a 2048-long row. -/
def lo (k : Fin 1024) : Fin 2048 := ⟨k.val, Nat.lt_of_lt_of_le k.isLt (by decide)⟩
/-- Position k of the second half of a 2048-long row. -/
def hi (k : Fin 1024) : Fin 2048 := ⟨1024 + k.val, by have := k.isLt; omega⟩

@[simp] theorem lo_val (k : Fin 1024) : (lo k).val = k.val := rfl
@[simp] theorem hi_val (k : Fin 1024) : (hi k).val = 1024 + k.val := rfl

/-- A sum over a 2048-long row is the sum over its first half plus the sum over its second half. -/
theorem sum_halves {M : Type*} [AddCommMonoid M] (f : Fin 2048 → M) :
    ∑ j : Fin 2048, f j = (∑ k : Fin 1024, f (lo k)) + ∑ k : Fin 1024, f (hi k) :=
  Fin.sum_univ_add (a := 1024) (b := 1024) f

/-- The word 0x3F800000 denotes the real number 1. -/
theorem one_eq : one = 1 := IdealRules.sign_bit.ideal_onePat .f32

/-- The sigmoid spelt out with the literal 1.0, division, exponential and negation is the sigmoid. -/
theorem logistic_spelt (z : EReal) : Ideal.div one (one + Ideal.exp (-z)) = Ideal.logistic z := by
  rw [one_eq]; rfl

/-- The forget gate of hidden unit n for one row. -/
def gate (xr hr : Fin 1024 → EReal) (Ux Uh : Fin 1024 → Fin 1024 → EReal) (b : Fin 1024 → EReal) (n : Fin 1024) : EReal :=
  Ideal.logistic ((∑ k : Fin 1024, xr k * Ux n k) + (∑ k : Fin 1024, hr k * Uh n k) + b n)

/-- The candidate state of hidden unit n: the state half of the layer sees the gated state. -/
def cand (xr hr : Fin 1024 → EReal) (Ux Uh : Fin 1024 → Fin 1024 → EReal) (b : Fin 1024 → EReal)
    (Vx Vh : Fin 1024 → Fin 1024 → EReal) (d : Fin 1024 → EReal) (n : Fin 1024) : EReal :=
  Ideal.tanh ((∑ k : Fin 1024, xr k * Vx n k) + (∑ k : Fin 1024, (gate xr hr Ux Uh b k * hr k) * Vh n k) + d n)

/-- The new state of hidden unit n. -/
def cell (xr hr : Fin 1024 → EReal) (Ux Uh : Fin 1024 → Fin 1024 → EReal) (b : Fin 1024 → EReal)
    (Vx Vh : Fin 1024 → Fin 1024 → EReal) (d : Fin 1024 → EReal) (n : Fin 1024) : EReal :=
  (one - gate xr hr Ux Uh b n) * hr n + gate xr hr Ux Uh b n * cand xr hr Ux Uh b Vx Vh d n

end Cert.MGru

end
-- ==== Proof.KernelCell.lean ====
/-
  The blocked program's body computes the cell on each row of its block.

  A block holds 512 rows of the flattened x and h. The body multiplies the block of x by the transposed first half of
  W1 and the block of h by the transposed second half, both into a zero accumulator, adds the two and the bias row:
  at entry (p, q) that is Σ_k x (p, k) · Ax (k, q) + Σ_k h (p, k) · Ah (k, q) + c1 (0, q), the argument of the forget
  gate of unit q for row p (a change of float format is the identity on the extended reals, and a shape cast to the
  same shape is the identity). The second layer is the same over x and the gated state, and the stored value is
  (1 - gate) · h + gate · tanh(second layer): the cell of row p at unit q.
-/
import proofs.«179924_j62380105008298_1_alg».proof.Proof.Gen.KernelIdeal.Skeleton
import proofs.«179924_j62380105008298_1_alg».proof.Proof.LibPlainDot
import proofs.«179924_j62380105008298_1_alg».proof.Proof.Cell
import Idealize.ShloMosaic.Lib.Pipeline.Value
import Idealize.ShloMosaic.Lib.ValueLayout

noncomputable section

namespace Cert.KernelIdeal.Body

open Cert.KernelIdeal Cert.KernelIdeal.Gen Cert.MGru
open Idealize.ShloMosaic Idealize.ShloMosaic.ValueIdx

/-- One layer before its nonlinearity, at entry (p, q): two products into zero and a bias row. -/
theorem layer_apply (a c : FVec Ideal S512x1024 .bf16) (wa wc : FVec Ideal S1024x1024 .bf16) (bias : FVec Ideal S1x1024 .f32)
    (p : Fin 512) (q : Fin 1024) :
    addf (addf (matmul dot_S512x1024_S1024x1024_S512x1024_1_0_0_1_n_n none a wa (constant S512x1024 .f32 0x00000000#32))
          (matmul dot_S512x1024_S1024x1024_S512x1024_1_0_0_1_n_n none c wc (constant S512x1024 .f32 0x00000000#32)))
        (broadcastTo S512x1024 bias broadcasts_S1x1024_S512x1024) (ix2 p q)
      = (∑ k : Fin 1024, a (ix2 p k) * wa (ix2 k q)) + (∑ k : Fin 1024, c (ix2 p k) * wc (ix2 k q))
          + bias (ix2 (0 : Fin 1) q) := by
  have e1 := PlainDot.matmul_zero_apply 512 1024 1024 a wa p q
  have e2 := PlainDot.matmul_zero_apply 512 1024 1024 c wc p q
  have e3 := broadcastTo_1b_ab_apply bias broadcasts_S1x1024_S512x1024 p q
  exact congrArg₂ (· + ·) (congrArg₂ (· + ·) e1 e2) e3

/-- The first layer's logits over a block, as the body forms them. -/
def logit1 (v0 v3 : FVec Ideal S512x1024 .f32) (v6 v9 : FVec Ideal S1024x1024 .bf16) (v13 : FVec Ideal S1x1024 .f32) :
    FVec Ideal S512x1024 .f32 :=
  addf (addf (matmul dot_S512x1024_S1024x1024_S512x1024_1_0_0_1_n_n none (truncf .bf16 v0 bitsLt_bf16_f32) v6 (constant S512x1024 .f32 0x00000000#32))
        (matmul dot_S512x1024_S1024x1024_S512x1024_1_0_0_1_n_n none (truncf .bf16 v3 bitsLt_bf16_f32) v9 (constant S512x1024 .f32 0x00000000#32)))
      (broadcastTo S512x1024 v13 broadcasts_S1x1024_S512x1024)

/-- The second layer's logits over a block: the state half sees the gated state. -/
def logit2 (v0 v3 : FVec Ideal S512x1024 .f32) (v6 v9 : FVec Ideal S1024x1024 .bf16) (v13 : FVec Ideal S1x1024 .f32)
    (v20 v23 : FVec Ideal S1024x1024 .bf16) (v27 : FVec Ideal S1x1024 .f32) : FVec Ideal S512x1024 .f32 :=
  addf (addf (matmul dot_S512x1024_S1024x1024_S512x1024_1_0_0_1_n_n none (truncf .bf16 v0 bitsLt_bf16_f32) v20 (constant S512x1024 .f32 0x00000000#32))
        (matmul dot_S512x1024_S1024x1024_S512x1024_1_0_0_1_n_n none (truncf .bf16 (mulf (logistic (logit1 v0 v3 v6 v9 v13)) v3) bitsLt_bf16_f32) v23 (constant S512x1024 .f32 0x00000000#32)))
      (broadcastTo S512x1024 v27 broadcasts_S1x1024_S512x1024)

/-- The stored value is the mix of the state and the candidate by the gate. -/
theorem pay_eq (v0 v3 : FVec Ideal S512x1024 .f32) (v6 v9 : FVec Ideal S1024x1024 .bf16) (v13 : FVec Ideal S1x1024 .f32)
    (v20 v23 : FVec Ideal S1024x1024 .bf16) (v27 : FVec Ideal S1x1024 .f32) :
    k0_pay1 (F := Ideal) v0 v3 v6 v9 v13 v20 v23 v27
      = addf (mulf (subf (broadcast S512x1024 (Scalar.ofBits .f32 0x3F800000#32)) (logistic (logit1 v0 v3 v6 v9 v13))) v3)
          (mulf (logistic (logit1 v0 v3 v6 v9 v13)) (tanh (logit2 v0 v3 v6 v9 v13 v20 v23 v27))) := by
  unfold k0_pay1 logit2 logit1
  simp only [shapeCast_self]

/-- The gate the body computes, at entry (p, r), is the cell's gate of row p at unit r. -/
theorem gate_apply (v0 v3 : FVec Ideal S512x1024 .f32) (v6 v9 : FVec Ideal S1024x1024 .bf16) (v13 : FVec Ideal S1x1024 .f32)
    (p : Fin 512) (r : Fin 1024) :
    logistic (logit1 v0 v3 v6 v9 v13) (ix2 p r)
      = gate (fun k => v0 (ix2 p k)) (fun k => v3 (ix2 p k)) (fun u k => v6 (ix2 k u)) (fun u k => v9 (ix2 k u))
          (fun u => v13 (ix2 (0 : Fin 1) u)) r :=
  congrArg Ideal.logistic (layer_apply (truncf .bf16 v0 bitsLt_bf16_f32) (truncf .bf16 v3 bitsLt_bf16_f32) v6 v9 v13 p r)

/-- The candidate the body computes, at entry (p, q), is the cell's candidate of row p at unit q. -/
theorem cand_apply (v0 v3 : FVec Ideal S512x1024 .f32) (v6 v9 : FVec Ideal S1024x1024 .bf16) (v13 : FVec Ideal S1x1024 .f32)
    (v20 v23 : FVec Ideal S1024x1024 .bf16) (v27 : FVec Ideal S1x1024 .f32) (p : Fin 512) (q : Fin 1024) :
    tanh (logit2 v0 v3 v6 v9 v13 v20 v23 v27) (ix2 p q)
      = cand (fun k => v0 (ix2 p k)) (fun k => v3 (ix2 p k)) (fun u k => v6 (ix2 k u)) (fun u k => v9 (ix2 k u))
          (fun u => v13 (ix2 (0 : Fin 1) u)) (fun u k => v20 (ix2 k u)) (fun u k => v23 (ix2 k u))
          (fun u => v27 (ix2 (0 : Fin 1) u)) q := by
  have hs : ∑ k : Fin 1024, (truncf .bf16 (mulf (logistic (logit1 v0 v3 v6 v9 v13)) v3) bitsLt_bf16_f32) (ix2 p k) * v23 (ix2 k q)
      = ∑ k : Fin 1024, (gate (fun k => v0 (ix2 p k)) (fun k => v3 (ix2 p k)) (fun u k => v6 (ix2 k u)) (fun u k => v9 (ix2 k u))
          (fun u => v13 (ix2 (0 : Fin 1) u)) k * v3 (ix2 p k)) * v23 (ix2 k q) :=
    Finset.sum_congr rfl fun k _ => congrArg (fun t => t * v3 (ix2 p k) * v23 (ix2 k q)) (gate_apply v0 v3 v6 v9 v13 p k)
  refine congrArg Ideal.tanh ?_
  refine (layer_apply (truncf .bf16 v0 bitsLt_bf16_f32) (truncf .bf16 (mulf (logistic (logit1 v0 v3 v6 v9 v13)) v3) bitsLt_bf16_f32) v20 v23 v27 p q).trans ?_
  rw [hs]
  rfl

/-- The payload at entry (p, q) of the block is the cell of row p at unit q. -/
theorem pay_apply (v0 v3 : FVec Ideal S512x1024 .f32) (v6 v9 : FVec Ideal S1024x1024 .bf16) (v13 : FVec Ideal S1x1024 .f32)
    (v20 v23 : FVec Ideal S1024x1024 .bf16) (v27 : FVec Ideal S1x1024 .f32) (p : Fin 512) (q : Fin 1024) :
    k0_pay1 (F := Ideal) v0 v3 v6 v9 v13 v20 v23 v27 (ix2 p q)
      = cell (fun k => v0 (ix2 p k)) (fun k => v3 (ix2 p k)) (fun u k => v6 (ix2 k u)) (fun u k => v9 (ix2 k u))
          (fun u => v13 (ix2 (0 : Fin 1) u)) (fun u k => v20 (ix2 k u)) (fun u k => v23 (ix2 k u))
          (fun u => v27 (ix2 (0 : Fin 1) u)) q := by
  rw [pay_eq]
  show (one - logistic (logit1 v0 v3 v6 v9 v13) (ix2 p q)) * v3 (ix2 p q)
      + logistic (logit1 v0 v3 v6 v9 v13) (ix2 p q) * tanh (logit2 v0 v3 v6 v9 v13 v20 v23 v27) (ix2 p q) = _
  rw [gate_apply, cand_apply]
  rfl

end Cert.KernelIdeal.Body

end
-- ==== Proof.Spec.lean ====
/-
  The cell applied to whole arrays.

  x and h are [8, 2048, 1024] (batch, sequence position, feature); W1 and W2 are [1024, 2048], row n holding the
  weights of hidden unit n against the joined row (x ‖ h): columns 0..1023 multiply x, columns 1024..2047 multiply h
  (or, for W2, the gated h); b1 and b2 are [1024]. The result at (b, s, n) is the cell of row (b, s) at unit n.
  The same function is also written over the rows of the flattened [16384, 1024] arrays, row r = b · 2048 + s, with
  the four weight halves given transposed ([feature, unit]) and the biases as [1, 1024] rows: that is the form in which
  the blocked program sees its operands.
-/
import proofs.«179924_j62380105008298_1_alg».proof.Proof.Cell

noncomputable section

namespace Cert.MGru

open Idealize.ShloMosaic Idealize.ShloMosaic.ValueIdx

/-- The new state at batch b, position s, hidden unit n. -/
def mgruAt (x h : (⟨3, ![8, 2048, 1024]⟩ : Shape).Idx → EReal) (W1 : (⟨2, ![1024, 2048]⟩ : Shape).Idx → EReal)
    (b1 : (⟨1, ![1024]⟩ : Shape).Idx → EReal) (W2 : (⟨2, ![1024, 2048]⟩ : Shape).Idx → EReal)
    (b2 : (⟨1, ![1024]⟩ : Shape).Idx → EReal) (b : Fin 8) (s : Fin 2048) (n : Fin 1024) : EReal :=
  cell (fun k => x (ix3 b s k)) (fun k => h (ix3 b s k))
    (fun u k => W1 (ix2 u (lo k))) (fun u k => W1 (ix2 u (hi k))) (fun u => b1 (ix1 u))
    (fun u k => W2 (ix2 u (lo k))) (fun u k => W2 (ix2 u (hi k))) (fun u => b2 (ix1 u)) n

/-- The new state as an array. -/
def mgru (x h : (⟨3, ![8, 2048, 1024]⟩ : Shape).Idx → EReal) (W1 : (⟨2, ![1024, 2048]⟩ : Shape).Idx → EReal)
    (b1 : (⟨1, ![1024]⟩ : Shape).Idx → EReal) (W2 : (⟨2, ![1024, 2048]⟩ : Shape).Idx → EReal)
    (b2 : (⟨1, ![1024]⟩ : Shape).Idx → EReal) : (⟨3, ![8, 2048, 1024]⟩ : Shape).Idx → EReal :=
  fun i => mgruAt x h W1 b1 W2 b2 (i 0) (i 1) (i 2)

/-- The cell over the rows of flattened operands: X, H are [16384, 1024]; the weight halves are [feature, unit];
    the biases are one row. -/
def rowsAt (X H : (⟨2, ![16384, 1024]⟩ : Shape).Idx → EReal)
    (Ax Ah : (⟨2, ![1024, 1024]⟩ : Shape).Idx → EReal) (c1 : (⟨2, ![1, 1024]⟩ : Shape).Idx → EReal)
    (Bx Bh : (⟨2, ![1024, 1024]⟩ : Shape).Idx → EReal) (c2 : (⟨2, ![1, 1024]⟩ : Shape).Idx → EReal)
    (r : Fin 16384) (n : Fin 1024) : EReal :=
  cell (fun k => X (ix2 r k)) (fun k => H (ix2 r k))
    (fun u k => Ax (ix2 k u)) (fun u k => Ah (ix2 k u)) (fun u => c1 (ix2 (0 : Fin 1) u))
    (fun u k => Bx (ix2 k u)) (fun u k => Bh (ix2 k u)) (fun u => c2 (ix2 (0 : Fin 1) u)) n

/-- The same as an array. -/
def rows (X H : (⟨2, ![16384, 1024]⟩ : Shape).Idx → EReal)
    (Ax Ah : (⟨2, ![1024, 1024]⟩ : Shape).Idx → EReal) (c1 : (⟨2, ![1, 1024]⟩ : Shape).Idx → EReal)
    (Bx Bh : (⟨2, ![1024, 1024]⟩ : Shape).Idx → EReal) (c2 : (⟨2, ![1, 1024]⟩ : Shape).Idx → EReal) :
    (⟨2, ![16384, 1024]⟩ : Shape).Idx → EReal :=
  fun i => rowsAt X H Ax Ah c1 Bx Bh c2 (i 0) (i 1)

end Cert.MGru

end
-- ==== Proof.LibFlatten.lean ====
/-
  Flattening the two leading axes of a rank-3 array, read at an index.

  A reshape keeps the row-major position of every element. For [a, b, c] against [r, c] the position of (i, j, k) is
  (i · b + j) · c + k and the position of (p, k) is p · c + k, so the two arrays agree at (i, j, k) and (p, k)
  exactly when p = i · b + j. Both directions are stated, generic in the extents and in the element type.
-/
import Idealize.ShloMosaic.Lib.Pipeline.Value
import Idealize.ShloMosaic.Lib.ValueIdx

namespace Idealize.ShloMosaic.Flatten

open Idealize.ShloMosaic Idealize.ShloMosaic.ValueIdx

variable {α : Type}

/-- An [a, b, c] array cast to [r, c] reads, at (p, k) with p = i · b + j, the operand at (i, j, k). -/
theorem shapeCast_abc_rc_apply {a b c r : ℕ} (x : (⟨3, ![a, b, c]⟩ : Shape).Idx → α)
    (h : (⟨3, ![a, b, c]⟩ : Shape).ShapeCasts ⟨2, ![r, c]⟩) (p : Fin r) (k : Fin c) (i : Fin a) (j : Fin b)
    (hp : p.val = i.val * b + j.val) : shapeCast ⟨2, ![r, c]⟩ x h (ix2 p k) = x (ix3 i j k) :=
  shapeCast_apply x h _ _ (by
    rw [Shape.rowMajor_val_three, Shape.rowMajor_val_two]
    show (i.val * b + j.val) * c + k.val = p.val * c + k.val
    rw [hp])

/-- An [r, c] array cast to [a, b, c] reads, at (i, j, k), the operand at (p, k) with p = i · b + j. -/
theorem shapeCast_rc_abc_apply {a b c r : ℕ} (x : (⟨2, ![r, c]⟩ : Shape).Idx → α)
    (h : (⟨2, ![r, c]⟩ : Shape).ShapeCasts ⟨3, ![a, b, c]⟩) (i : Fin a) (j : Fin b) (k : Fin c) (p : Fin r)
    (hp : p.val = i.val * b + j.val) : shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.Flatten
-- ==== Proof.KernelValue.lean ====
/-
  The blocked program's result array is the cell applied to every row.

  Before the launch the program flattens x and h to [16384, 1024] (row r = b · 2048 + s), cuts each weight matrix
  into its two column halves and transposes them to [feature, unit], and lays each bias out as one row. The launch
  walks 32 blocks of 512 rows; at block t the body sees rows t · 512 … t · 512 + 511 of x and h and the whole of the
  four weight halves and two bias rows, and writes back the cell of each of its rows (the body's value, read entry by
  entry). Every row lies in exactly the block r / 512, so the flattened output is the cell of every row, and the
  reshape after the launch puts row b · 2048 + s back at (b, s).
-/
import proofs.«179924_j62380105008298_1_alg».proof.Proof.Gen.KernelIdeal.Frame
import proofs.«179924_j62380105008298_1_alg».proof.Proof.KernelCell
import proofs.«179924_j62380105008298_1_alg».proof.Proof.Spec
import proofs.«179924_j62380105008298_1_alg».proof.Proof.LibFlatten
import Idealize.ShloMosaic.Lib.StableHlo.Run
import Idealize.ShloMosaic.Lib.Pipeline.Value
import Idealize.ShloMosaic.Lib.ValueLayout
import Idealize.ShloMosaic.PureOps.Ideal

noncomputable section

namespace Cert.MGru

/-- The cell depends on its eight operands only through their entries. -/
theorem cell_congr {xr xr' hr hr' : Fin 1024 → EReal} {Ux Ux' Uh Uh' : Fin 1024 → Fin 1024 → EReal} {b b' : Fin 1024 → EReal}
    {Vx Vx' Vh Vh' : Fin 1024 → Fin 1024 → EReal} {d d' : Fin 1024 → EReal}
    (h1 : ∀ k, xr k = xr' k) (h2 : ∀ k, hr k = hr' k) (h3 : ∀ u k, Ux u k = Ux' u k) (h4 : ∀ u k, Uh u k = Uh' u k)
    (h5 : ∀ u, b u = b' u) (h6 : ∀ u k, Vx u k = Vx' u k) (h7 : ∀ u k, Vh u k = Vh' u k) (h8 : ∀ u, d u = d' u) (n : Fin 1024) :
    cell xr hr Ux Uh b Vx Vh d n = cell xr' hr' Ux' Uh' b' Vx' Vh' d' n := by
  obtain rfl : xr = xr' := funext h1
  obtain rfl : hr = hr' := funext h2
  obtain rfl : Ux = Ux' := funext fun u => funext (h3 u)
  obtain rfl : Uh = Uh' := funext fun u => funext (h4 u)
  obtain rfl : b = b' := funext h5
  obtain rfl : Vx = Vx' := funext fun u => funext (h6 u)
  obtain rfl : Vh = Vh' := funext fun u => funext (h7 u)
  obtain rfl : d = d' := funext h8
  rfl

end Cert.MGru

namespace Cert.KernelIdeal.KValue

open Cert.KernelIdeal Cert.KernelIdeal.Gen Cert.KernelIdeal.Body Cert.MGru
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The argument arrays on a core -/

abbrev aX (c : Dev nD) : FVec Ideal S8x2048x1024 .f32 := m ((c : Thread nD τ).loc main_arg0)
abbrev aH (c : Dev nD) : FVec Ideal S8x2048x1024 .f32 := m ((c : Thread nD τ).loc main_arg1)
abbrev aW1 (c : Dev nD) : FVec Ideal S1024x2048 .f32 := m ((c : Thread nD τ).loc main_arg2)
abbrev ab1 (c : Dev nD) : FVec Ideal S1024 .f32 := m ((c : Thread nD τ).loc main_arg3)
abbrev aW2 (c : Dev nD) : FVec Ideal S1024x2048 .f32 := m ((c : Thread nD τ).loc main_arg4)
abbrev ab2 (c : Dev nD) : FVec Ideal S1024 .f32 := m ((c : Thread nD τ).loc main_arg5)

/-! ## What the launch finds in its eight operand arrays -/

theorem V_x (c : Dev nD) : (V m c main_v0 : FVec Ideal S16384x1024 .f32)
    = shapeCast S16384x1024 (aX m c) shapeCasts_S8x2048x1024_S16384x1024 := by
  show StableHlo.after hostOps0 (fun b => m (c, b)) (Proc.devRef .tc main_v0) = _
  after_results
  rfl

theorem V_h (c : Dev nD) : (V m c main_v1 : FVec Ideal S16384x1024 .f32)
    = shapeCast S16384x1024 (aH m c) shapeCasts_S8x2048x1024_S16384x1024 := by
  show StableHlo.after hostOps0 (fun b => m (c, b)) (Proc.devRef .tc main_v1) = _
  after_results
  rfl

theorem V_w1x (c : Dev nD) : (V m c main_v4 : FVec Ideal S1024x1024 .bf16)
    = truncf .bf16 (transpose S1024x1024 [1, 0] (extractStridedSlice S1024x1024 ![0, 0] (aW1 m c) slices_S1024x2048_S1024x1024_0_0)
        transposes_S1024x1024_S1024x1024_1_0) bitsLt_bf16_f32 := by
  show StableHlo.after hostOps0 (fun b => m (c, b)) (Proc.devRef .tc main_v4) = _
  after_results

theorem V_w1h (c : Dev nD) : (V m c main_v7 : FVec Ideal S1024x1024 .bf16)
    = truncf .bf16 (transpose S1024x1024 [1, 0] (extractStridedSlice S1024x1024 ![0, 1024] (aW1 m c) slices_S1024x2048_S1024x1024_0_1024)
        transposes_S1024x1024_S1024x1024_1_0) bitsLt_bf16_f32 := by
  show StableHlo.after hostOps0 (fun b => m (c, b)) (Proc.devRef .tc main_v7) = _
  after_results

theorem V_w2x (c : Dev nD) : (V m c main_v10 : FVec Ideal S1024x1024 .bf16)
    = truncf .bf16 (transpose S1024x1024 [1, 0] (extractStridedSlice S1024x1024 ![0, 0] (aW2 m c) slices_S1024x2048_S1024x1024_0_0)
        transposes_S1024x1024_S1024x1024_1_0) bitsLt_bf16_f32 := by
  show StableHlo.after hostOps0 (fun b => m (c, b)) (Proc.devRef .tc main_v10) = _
  after_results

theorem V_w2h (c : Dev nD) : (V m c main_v13 : FVec Ideal S1024x1024 .bf16)
    = truncf .bf16 (transpose S1024x1024 [1, 0] (extractStridedSlice S1024x1024 ![0, 1024] (aW2 m c) slices_S1024x2048_S1024x1024_0_1024)
        transposes_S1024x1024_S1024x1024_1_0) bitsLt_bf16_f32 := by
  show StableHlo.after hostOps0 (fun b => m (c, b)) (Proc.devRef .tc main_v13) = _
  after_results

theorem V_b1 (c : Dev nD) : (V m c main_v14 : FVec Ideal S1x1024 .f32) = shapeCast S1x1024 (ab1 m c) shapeCasts_S1024_S1x1024 := by
  show StableHlo.after hostOps0 (fun b => m (c, b)) (Proc.devRef .tc main_v14) = _
  after_results
  rfl

theorem V_b2 (c : Dev nD) : (V m c main_v15 : FVec Ideal S1x1024 .f32) = shapeCast S1x1024 (ab2 m c) shapeCasts_S1024_S1x1024 := by
  show StableHlo.after hostOps0 (fun b => m (c, b)) (Proc.devRef .tc main_v15) = _
  after_results
  rfl

/-- Row r = b · 2048 + s of flattened x is row (b, s) of x. -/
theorem x_apply (c : Dev nD) (r : Fin 16384) (b : Fin 8) (s : Fin 2048) (k : Fin 1024) (hr : r.val = b.val * 2048 + s.val) :
    (V m c main_v0 : FVec Ideal S16384x1024 .f32) (ix2 r k) = aX m c (ix3 b s k) := by
  rw [V_x]; exact Flatten.shapeCast_abc_rc_apply _ _ r k b s hr

/-- The same for h. -/
theorem h_apply (c : Dev nD) (r : Fin 16384) (b : Fin 8) (s : Fin 2048) (k : Fin 1024) (hr : r.val = b.val * 2048 + s.val) :
    (V m c main_v1 : FVec Ideal S16384x1024 .f32) (ix2 r k) = aH m c (ix3 b s k) := by
  rw [V_h]; exact Flatten.shapeCast_abc_rc_apply _ _ r k b s hr

/-- A transposed column half of a weight matrix at (feature k, unit u) is the matrix at (u, that half's column k). -/
theorem half_apply (W : FVec Ideal S1024x2048 .f32) (o : Nat) (hs : S1024x2048.Slices ![0, o] S1024x1024) (k u : Fin 1024)
    (f : Fin 2048) (hf : f.val = o + k.val) :
    (truncf .bf16 (transpose S1024x1024 [1, 0] (extractStridedSlice S1024x1024 ![0, o] W hs) transposes_S1024x1024_S1024x1024_1_0)
      bitsLt_bf16_f32 : FVec Ideal S1024x1024 .bf16) (ix2 k u) = W (ix2 u f) := by
  show transpose S1024x1024 [1, 0] (extractStridedSlice S1024x1024 ![0, o] W hs) transposes_S1024x1024_S1024x1024_1_0 (ix2 k u) = _
  rw [transpose_ix2_apply]
  exact slice2_axis1_apply o W hs u k f hf

theorem w1x_apply (c : Dev nD) (k u : Fin 1024) : (V m c main_v4 : FVec Ideal S1024x1024 .bf16) (ix2 k u) = aW1 m c (ix2 u (lo k)) := by
  rw [V_w1x]; exact half_apply _ 0 _ k u (lo k) (Nat.zero_add _).symm
theorem w1h_apply (c : Dev nD) (k u : Fin 1024) : (V m c main_v7 : FVec Ideal S1024x1024 .bf16) (ix2 k u) = aW1 m c (ix2 u (hi k)) := by
  rw [V_w1h]; exact half_apply _ 1024 _ k u (hi k) rfl
theorem w2x_apply (c : Dev nD) (k u : Fin 1024) : (V m c main_v10 : FVec Ideal S1024x1024 .bf16) (ix2 k u) = aW2 m c (ix2 u (lo k)) := by
  rw [V_w2x]; exact half_apply _ 0 _ k u (lo k) (Nat.zero_add _).symm
theorem w2h_apply (c : Dev nD) (k u : Fin 1024) : (V m c main_v13 : FVec Ideal S1024x1024 .bf16) (ix2 k u) = aW2 m c (ix2 u (hi k)) := by
  rw [V_w2h]; exact half_apply _ 1024 _ k u (hi k) rfl

theorem b1_apply (c : Dev nD) (u : Fin 1024) : (V m c main_v14 : FVec Ideal S1x1024 .f32) (ix2 (0 : Fin 1) u) = ab1 m c (ix1 u) := by
  rw [V_b1]; exact shapeCast_a_1a_apply _ _ 0 u
theorem b2_apply (c : Dev nD) (u : Fin 1024) : (V m c main_v15 : FVec Ideal S1x1024 .f32) (ix2 (0 : Fin 1) u) = ab2 m c (ix1 u) := by
  rw [V_b2]; exact shapeCast_a_1a_apply _ _ 0 u

/-! ## What a block writes back -/

/-- The flattened output as one function of the eight operand arrays the launch finds. -/
abbrev flat (c : Dev nD) : FVec Ideal S16384x1024 .f32 :=
  rows (V m c main_v0) (V m c main_v1) (V m c main_v4) (V m c main_v7) (V m c main_v14) (V m c main_v10) (V m c main_v13) (V m c main_v15)

theorem zero_off : (![0, 0] : Fin 2 → Nat) = fun _ => 0 := funext fun a => by fin_cases a <;> rfl

/-- The block index maps over the 32 points: x, h and the output move down one block of rows per point; the weight
    halves and the bias rows stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 32 := Nat.lt_of_lt_of_eq t.isLt N_0

/-- Row p of block t is row t · 512 + p of the flattened arrays. -/
def row (t : Fin cfg0.N) (p : Fin 512) : Fin 16384 := ⟨t.val * 512 + p.val, by have := point_lt t; have := p.isLt; omega⟩

theorem rd_x (c : Dev nD) (t : Fin cfg0.N) (p : Fin 512) (k : Fin 1024) :
    iblk m c 0 t (ix2 p k) = (V m c main_v0 : FVec Ideal S16384x1024 .f32) (ix2 (row t p) k) := by
  show V m c main_v0 (((cfg0.win 0).blk t).view.emb (ix2 p k)) = V m c main_v0 (ix2 (row t p) k)
  have e : ((cfg0.win 0).blk t).view.emb (ix2 p k) = ix2 (row t p) k := by
    obtain ⟨e0, e1, -⟩ := idx_facts t
    funext a; apply Fin.ext
    match a with
    | ⟨0, _⟩ => show win0_0.index t (0 : Fin 2) * 512 + 1 * p.val = t.val * 512 + p.val; omega
    | ⟨1, _⟩ => show win0_0.index t (1 : Fin 2) * 1024 + 1 * k.val = k.val; omega
  rw [e]

theorem rd_h (c : Dev nD) (t : Fin cfg0.N) (p : Fin 512) (k : Fin 1024) :
    iblk m c 1 t (ix2 p k) = (V m c main_v1 : FVec Ideal S16384x1024 .f32) (ix2 (row t p) k) := by
  show V m c main_v1 (((cfg0.win 1).blk t).view.emb (ix2 p k)) = V m c main_v1 (ix2 (row t p) k)
  have e : ((cfg0.win 1).blk t).view.emb (ix2 p k) = ix2 (row t p) k := by
    obtain ⟨-, -, e0, e1, -⟩ := idx_facts t
    funext a; apply Fin.ext
    match a with
    | ⟨0, _⟩ => show win0_1.index t (0 : Fin 2) * 512 + 1 * p.val = t.val * 512 + p.val; omega
    | ⟨1, _⟩ => show win0_1.index t (1 : Fin 2) * 1024 + 1 * k.val = k.val; omega
  rw [e]

theorem rd_w1x (c : Dev nD) (t : Fin cfg0.N) (k u : Fin 1024) :
    iblk m c 2 t (ix2 k u) = (V m c main_v4 : FVec Ideal S1024x1024 .bf16) (ix2 k u) := by
  show V m c main_v4 (((cfg0.win 2).blk t).view.emb (ix2 k u)) = V m c main_v4 (ix2 k u)
  have e : ((cfg0.win 2).blk t).view.emb (ix2 k u) = ix2 k u := by
    obtain ⟨-, -, -, -, e0, e1, -⟩ := idx_facts t
    funext a; apply Fin.ext
    match a with
    | ⟨0, _⟩ => show win0_2.index t (0 : Fin 2) * 1024 + 1 * k.val = k.val; omega
    | ⟨1, _⟩ => show win0_2.index t (1 : Fin 2) * 1024 + 1 * u.val = u.val; omega
  rw [e]

theorem rd_w1h (c : Dev nD) (t : Fin cfg0.N) (k u : Fin 1024) :
    iblk m c 3 t (ix2 k u) = (V m c main_v7 : FVec Ideal S1024x1024 .bf16) (ix2 k u) := by
  show V m c main_v7 (((cfg0.win 3).blk t).view.emb (ix2 k u)) = V m c main_v7 (ix2 k u)
  have e : ((cfg0.win 3).blk t).view.emb (ix2 k u) = ix2 k u := by
    obtain ⟨-, -, -, -, -, -, e0, e1, -⟩ := idx_facts t
    funext a; apply Fin.ext
    match a with
    | ⟨0, _⟩ => show win0_3.index t (0 : Fin 2) * 1024 + 1 * k.val = k.val; omega
    | ⟨1, _⟩ => show win0_3.index t (1 : Fin 2) * 1024 + 1 * u.val = u.val; omega
  rw [e]

theorem rd_w2x (c : Dev nD) (t : Fin cfg0.N) (k u : Fin 1024) :
    iblk m c 4 t (ix2 k u) = (V m c main_v10 : FVec Ideal S1024x1024 .bf16) (ix2 k u) := by
  show V m c main_v10 (((cfg0.win 4).blk t).view.emb (ix2 k u)) = V m c main_v10 (ix2 k u)
  have e : ((cfg0.win 4).blk t).view.emb (ix2 k u) = ix2 k u := by
    obtain ⟨-, -, -, -, -, -, -, -, e0, e1, -⟩ := idx_facts t
    funext a; apply Fin.ext
    match a with
    | ⟨0, _⟩ => show win0_4.index t (0 : Fin 2) * 1024 + 1 * k.val = k.val; omega
    | ⟨1, _⟩ => show win0_4.index t (1 : Fin 2) * 1024 + 1 * u.val = u.val; omega
  rw [e]

theorem rd_w2h (c : Dev nD) (t : Fin cfg0.N) (k u : Fin 1024) :
    iblk m c 5 t (ix2 k u) = (V m c main_v13 : FVec Ideal S1024x1024 .bf16) (ix2 k u) := by
  show V m c main_v13 (((cfg0.win 5).blk t).view.emb (ix2 k u)) = V m c main_v13 (ix2 k u)
  have e : ((cfg0.win 5).blk t).view.emb (ix2 k u) = ix2 k u := by
    obtain ⟨-, -, -, -, -, -, -, -, -, -, e0, e1, -⟩ := idx_facts t
    funext a; apply Fin.ext
    match a with
    | ⟨0, _⟩ => show win0_5.index t (0 : Fin 2) * 1024 + 1 * k.val = k.val; omega
    | ⟨1, _⟩ => show win0_5.index t (1 : Fin 2) * 1024 + 1 * u.val = u.val; omega
  rw [e]

theorem rd_b1 (c : Dev nD) (t : Fin cfg0.N) (u : Fin 1024) :
    iblk m c 6 t (ix2 (0 : Fin 1) u) = (V m c main_v14 : FVec Ideal S1x1024 .f32) (ix2 (0 : Fin 1) u) := by
  show V m c main_v14 (((cfg0.win 6).blk t).view.emb (ix2 (0 : Fin 1) u)) = V m c main_v14 (ix2 (0 : Fin 1) u)
  have e : ((cfg0.win 6).blk t).view.emb (ix2 (0 : Fin 1) u) = ix2 (0 : Fin 1) u := by
    obtain ⟨-, -, -, -, -, -, -, -, -, -, -, -, e0, e1, -⟩ := idx_facts t
    funext a; apply Fin.ext
    match a with
    | ⟨0, _⟩ => show win0_6.index t (0 : Fin 2) * 1 + 1 * 0 = 0; omega
    | ⟨1, _⟩ => show win0_6.index t (1 : Fin 2) * 1024 + 1 * u.val = u.val; omega
  rw [e]

theorem rd_b2 (c : Dev nD) (t : Fin cfg0.N) (u : Fin 1024) :
    iblk m c 7 t (ix2 (0 : Fin 1) u) = (V m c main_v15 : FVec Ideal S1x1024 .f32) (ix2 (0 : Fin 1) u) := by
  show V m c main_v15 (((cfg0.win 7).blk t).view.emb (ix2 (0 : Fin 1) u)) = V m c main_v15 (ix2 (0 : Fin 1) u)
  have e : ((cfg0.win 7).blk t).view.emb (ix2 (0 : Fin 1) u) = ix2 (0 : Fin 1) u := by
    obtain ⟨-, -, -, -, -, -, -, -, -, -, -, -, -, -, e0, e1, -⟩ := idx_facts t
    funext a; apply Fin.ext
    match a with
    | ⟨0, _⟩ => show win0_7.index t (0 : Fin 2) * 1 + 1 * 0 = 0; omega
    | ⟨1, _⟩ => show win0_7.index t (1 : Fin 2) * 1024 + 1 * u.val = u.val; omega
  rw [e]

/-- Entry (p, q) of the output block at point t sits at (t · 512 + p, q) of the flattened output. -/
theorem out_emb (t : Fin cfg0.N) (p : Fin 512) (q : Fin 1024) : ((cfg0.win 8).blk t).view.emb (ix2 p q) = ix2 (row t p) q := by
  obtain ⟨-, -, -, -, -, -, -, -, -, -, -, -, -, -, -, -, e0, e1⟩ := idx_facts t
  funext a; apply Fin.ext
  match a with
  | ⟨0, _⟩ => show win0_8.index t (0 : Fin 2) * 512 + 1 * p.val = t.val * 512 + p.val; omega
  | ⟨1, _⟩ => show win0_8.index t (1 : Fin 2) * 1024 + 1 * q.val = q.val; omega

/-- WHAT POINT t WRITES BACK is block t of the flattened cell. -/
theorem flushed_eq (c : Dev nD) (t : Fin cfg0.N) :
    (dats m 0 c).flushed 8 t = ((cfg0.win 8).blk t).view.read (Elt Ideal) (flat m c) := by
  show (cfg0.win 8).cut (grid0.coords t) ((dats m 0 c).after 8 t) = _
  rw [after0_8]
  unfold out0_8
  rw [View.canon_unit_zero zero_off]
  simp only [View.ld_unit_zero (S := S512x1024) zero_off, View.ld_unit_zero (S := S1024x1024) zero_off,
    View.ld_unit_zero (S := S1x1024) zero_off]
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (iblk m c 3 t) (iblk m c 6 t) (iblk m c 4 t) (iblk m c 5 t)
      (iblk m c 7 t) (ix2 p q) = flat m c (((cfg0.win 8).blk t).view.emb (ix2 p q))
  rw [out_emb t p q]
  refine (pay_apply (iblk m c 0 t) (iblk m c 1 t) (iblk m c 2 t) (iblk m c 3 t) (iblk m c 6 t) (iblk m c 4 t) (iblk m c 5 t)
    (iblk m c 7 t) p q).trans ?_
  exact cell_congr (fun k => rd_x m c t p k) (fun k => rd_h m c t p k) (fun u k => rd_w1x m c t k u) (fun u k => rd_w1h m c t k u)
    (fun u => rd_b1 m c t u) (fun u k => rd_w2x m c t k u) (fun u k => rd_w2h m c t k u) (fun u => rd_b2 m c t u) q

/-! ## The flattened output after the launch -/

theorem mem_blk (t : Fin cfg0.N) (i : S16384x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v16).slice (win0_8.rect t)).set ↔ _
  rw [View.set_slice_whole, Rect.mem_set_unit]
  exact Iff.rfl

/-- Every row lies in the block of its quotient by 512. -/
theorem cover (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 32 := N_0
  have ht : (i 0).val / 512 < cfg0.N := by rw [hN]; omega
  obtain ⟨-, -, -, -, -, -, -, -, -, -, -, -, -, -, -, -, e0, e1⟩ := idx_facts ⟨(i 0).val / 512, ht⟩
  refine ⟨⟨(i 0).val / 512, ht⟩, flush0_8 _, ?_⟩
  rw [mem_blk]
  intro a
  match a with
  | ⟨0, _⟩ =>
    show win0_8.index ⟨(i 0).val / 512, ht⟩ (0 : Fin 2) * 512 ≤ (i 0).val
      ∧ (i 0).val < win0_8.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_8.index ⟨(i 0).val / 512, ht⟩ (1 : Fin 2) * 1024 ≤ (i 1).val
      ∧ (i 1).val < win0_8.index ⟨(i 0).val / 512, ht⟩ (1 : Fin 2) * 1024 + 1024
    rw [e1]; omega

/-- The flattened output after the launch is the flattened cell. -/
theorem final (c : Dev nD) : (dats m 0 c).arrAt 8 cfg0.N = flat m c :=
  (dats m 0 c).arrAt_eq_of_cover 8 (flat m c) (fun t _ => flushed_eq m c t) cover

/-! ## The result after the reshape back -/

theorem result_eq (c : Dev nD) :
    Pipeline.afterTail₀ cfgs (dats m) 0 (V0 m) [hostOps1] c main_v17
      = mgru (aX m c) (aH m c) (aW1 m c) (ab1 m c) (aW2 m c) (ab2 m c) := by
  unfold Pipeline.afterTail₀
  show StableHlo.after hostOps1 _ (Proc.devRef .tc main_v17) = _
  after_results
  show shapeCast S8x2048x1024 (Pipeline.withArrays spec0 c (V0 m c) (fun w => (dats m 0 c).arrAt w cfg0.N) (Proc.devRef .tc main_v16))
    shapeCasts_S16384x1024_S8x2048x1024 = _
  rw [show Pipeline.withArrays spec0 c (V0 m c) (fun w => (dats m 0 c).arrAt w cfg0.N) (Proc.devRef .tc main_v16)
      = (dats m 0 c).arrAt 8 cfg0.N from Pipeline.withArrays_arr spec0 launch0.win.arr_inj c _ _ 8, final]
  funext i
  obtain ⟨b, s, n, rfl⟩ : ∃ (b : Fin 8) (s : Fin 2048) (n : Fin 1024), i = ix3 b s n := ⟨i 0, i 1, i 2, eq_ix3 i⟩
  have hlt : b.val * 2048 + s.val < 16384 := by have := b.isLt; have := s.isLt; omega
  rw [Flatten.shapeCast_rc_abc_apply (flat m c) shapeCasts_S16384x1024_S8x2048x1024 b s n ⟨b.val * 2048 + s.val, hlt⟩ rfl]
  exact cell_congr (fun k => x_apply m c _ b s k rfl) (fun k => h_apply m c _ b s k rfl) (fun u k => w1x_apply m c k u)
    (fun u k => w1h_apply m c k u) (fun u => b1_apply m c u) (fun u k => w2x_apply m c k u) (fun u k => w2h_apply m c k u)
    (fun u => b2_apply m c u) n

/-! ## The run, read -/

/-- Every weakly fair execution ends with the result at the cell of the arguments, and the arguments unchanged. -/
theorem run : θ_run defs (onTc (τ := τ) (main (F := Ideal))) ⟨m, fun _ => 0, ρ⟩ fun r => ∀ c : Dev nD,
      r.2.mem ((c : Thread nD τ).loc main_v17) = mgru (aX m c) (aH m c) (aW1 m c) (ab1 m c) (aW2 m c) (ab2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefValue.lean ====
/-
  The reference program computes the cell.

  The reference joins each row (x ‖ h) into 2048 entries and contracts it with row n of W1: entry f of the joined row
  is x's entry f for f < 1024 and h's entry f - 1024 otherwise, so by the split of a 2048-long sum into its halves the
  contraction is Σ_k x k · W1 (n, k) + Σ_k h k · W1 (n, 1024 + k). It then spells the sigmoid as 1 / (1 + e^-z) with
  the literal 1.0, which is the sigmoid. The second layer is the same with the gated state gate · h in the second
  half of the joined row, followed by tanh, and the result is (1 - gate) · h + gate · tanh(…): the cell.
-/
import proofs.«179924_j62380105008298_1_alg».proof.Proof.Gen.ReferenceIdeal.Read
import proofs.«179924_j62380105008298_1_alg».proof.Proof.Spec

noncomputable section

namespace Cert.ReferenceIdeal.RefValue

open Cert.ReferenceIdeal Cert.ReferenceIdeal.Gen Cert.ReferenceIdeal.Read Cert.MGru
open Idealize.ShloMosaic Idealize.ShloMosaic.ValueIdx

/-- The joined row at a position of its first half reads the first array. -/
theorem joined_lo (y0 y1 : FVec Ideal S8x2048x1024 .f32) (b : Fin 8) (s : Fin 2048) (k : Fin 1024) (j : S8x2048x2048.Idx)
    (h0 : (j 0).val = b.val) (h1 : (j 1).val = s.val) (h2 : (j 2).val = k.val) :
    concatenate S8x2048x2048 2 [⟨S8x2048x1024, y0⟩, ⟨S8x2048x1024, y1⟩] concatenates_S8x2048x1024_S8x2048x1024_S8x2048x2048_d2 j
      = y0 (ix3 b s k) :=
  concatenate_pair_apply_left (2 : Fin S8x2048x2048.rank) y0 y1 _ j rfl (ix3 b s k) fun a => by
    match a with
    | ⟨0, _⟩ => exact h0.symm
    | ⟨1, _⟩ => exact h1.symm
    | ⟨2, _⟩ => exact h2.symm

/-- The joined row at a position of its second half reads the second array, 1024 positions earlier. -/
theorem joined_hi (y0 y1 : FVec Ideal S8x2048x1024 .f32) (b : Fin 8) (s : Fin 2048) (k : Fin 1024) (j : S8x2048x2048.Idx)
    (h0 : (j 0).val = b.val) (h1 : (j 1).val = s.val) (h2 : (j 2).val = 1024 + k.val) :
    concatenate S8x2048x2048 2 [⟨S8x2048x1024, y0⟩, ⟨S8x2048x1024, y1⟩] concatenates_S8x2048x1024_S8x2048x1024_S8x2048x2048_d2 j
      = y1 (ix3 b s k) :=
  concatenate_pair_apply_right (2 : Fin S8x2048x2048.rank) y0 y1 _ j rfl rfl (ix3 b s k)
    (fun a ha => by
      match a with
      | ⟨0, _⟩ => exact h0.symm
      | ⟨1, _⟩ => exact h1.symm
      | ⟨2, _⟩ => exact (ha rfl).elim)
    (by show k.val + 1024 = (j 2).val; omega)

/-- The joined row contracted with a weight row: the two halves' dot products added. -/
theorem dot_joined (y0 y1 : FVec Ideal S8x2048x1024 .f32) (W : FVec Ideal S1024x2048 .f32) (b : Fin 8) (s : Fin 2048) (n : Fin 1024)
    (L : Fin 2048 → S8x2048x2048.Idx) (R : Fin 2048 → S1024x2048.Idx)
    (hL : ∀ f, (L f 0).val = b.val ∧ (L f 1).val = s.val ∧ (L f 2).val = f.val) (hR : ∀ f, R f = ix2 n f) :
    ∑ f : Fin 2048, (concatenate S8x2048x2048 2 [⟨S8x2048x1024, y0⟩, ⟨S8x2048x1024, y1⟩] concatenates_S8x2048x1024_S8x2048x1024_S8x2048x2048_d2) (L f) * W (R f)
      = (∑ k : Fin 1024, y0 (ix3 b s k) * W (ix2 n (lo k))) + ∑ k : Fin 1024, y1 (ix3 b s k) * W (ix2 n (hi k)) := by
  rw [sum_halves]
  congr 1
  · refine Finset.sum_congr rfl fun k _ => ?_
    rw [joined_lo y0 y1 b s k (L (lo k)) (hL _).1 (hL _).2.1 (hL _).2.2, hR]
  · refine Finset.sum_congr rfl fun k _ => ?_
    rw [joined_hi y0 y1 b s k (L (hi k)) (hL _).1 (hL _).2.1 (hL _).2.2, hR]

/-- A bias broadcast over batch and position reads its entry at the hidden unit. -/
theorem bias_idx1 (b : Fin 8) (s : Fin 2048) (n : Fin 1024) : idx_main_v2 (idx_main_v3 (ix3 b s n)) = ix1 n :=
  funext fun a => by match a with | ⟨0, _⟩ => rfl
theorem bias_idx2 (b : Fin 8) (s : Fin 2048) (n : Fin 1024) : idx_main_v14 (idx_main_v15 (ix3 b s n)) = ix1 n :=
  funext fun a => by match a with | ⟨0, _⟩ => rfl

/-- The weight operand of either contraction is read at (hidden unit, position in the joined row). -/
theorem ridx1 (b : Fin 8) (s : Fin 2048) (n : Fin 1024) (f : Fin 2048) : ridx_main_v1 (ix3 b s n) f = ix2 n f :=
  funext fun a => by match a with | ⟨0, _⟩ => rfl | ⟨1, _⟩ => rfl
theorem ridx13 (b : Fin 8) (s : Fin 2048) (n : Fin 1024) (f : Fin 2048) : ridx_main_v13 (ix3 b s n) f = ix2 n f :=
  funext fun a => by match a with | ⟨0, _⟩ => rfl | ⟨1, _⟩ => rfl

/-- The reference's forget gate is the cell's. -/
theorem gate_eq (x0 x1 : FVec Ideal S8x2048x1024 .f32) (x2 : FVec Ideal S1024x2048 .f32) (x3 : FVec Ideal S1024 .f32)
    (b : Fin 8) (s : Fin 2048) (u : Fin 1024) :
    val_main_v10 (F := Ideal) x0 x1 x2 x3 (ix3 b s u)
      = gate (fun k => x0 (ix3 b s k)) (fun k => x1 (ix3 b s k)) (fun u k => x2 (ix2 u (lo k))) (fun u k => x2 (ix2 u (hi k)))
          (fun u => x3 (ix1 u)) u := by
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply, bias_idx1]
  unfold val_main_v0
  rw [dot_joined x0 x1 x2 b s u (lidx_main_v1 (ix3 b s u)) (ridx_main_v1 (ix3 b s u)) (fun f => ⟨rfl, rfl, rfl⟩) (ridx1 b s u)]
  exact logistic_spelt _

/-- The reference's candidate state is the cell's. -/
theorem cand_eq (x0 x1 : FVec Ideal S8x2048x1024 .f32) (x2 : FVec Ideal S1024x2048 .f32) (x3 : FVec Ideal S1024 .f32)
    (x4 : FVec Ideal S1024x2048 .f32) (x5 : FVec Ideal S1024 .f32) (b : Fin 8) (s : Fin 2048) (n : Fin 1024) :
    val_main_v17 (F := Ideal) x0 x1 x2 x3 x4 x5 (ix3 b s n)
      = cand (fun k => x0 (ix3 b s k)) (fun k => x1 (ix3 b s k)) (fun u k => x2 (ix2 u (lo k))) (fun u k => x2 (ix2 u (hi k)))
          (fun u => x3 (ix1 u)) (fun u k => x4 (ix2 u (lo k))) (fun u k => x4 (ix2 u (hi k))) (fun u => x5 (ix1 u)) n := by
  rw [val_main_v17_apply, val_main_v16_apply, val_main_v13_apply, val_main_v15_apply, val_main_v14_apply, bias_idx2]
  unfold val_main_v12
  rw [dot_joined x0 (val_main_v11 (F := Ideal) x0 x1 x2 x3) x4 b s n (lidx_main_v13 (ix3 b s n)) (ridx_main_v13 (ix3 b s n))
    (fun f => ⟨rfl, rfl, rfl⟩) (ridx13 b s n)]
  simp only [val_main_v11_apply, gate_eq]
  rfl

/-- The reference's result array is the cell applied to every row. -/
theorem reference_eq (x0 x1 : FVec Ideal S8x2048x1024 .f32) (x2 : FVec Ideal S1024x2048 .f32) (x3 : FVec Ideal S1024 .f32)
    (x4 : FVec Ideal S1024x2048 .f32) (x5 : FVec Ideal S1024 .f32) :
    val_main_v22 (F := Ideal) x0 x1 x2 x3 x4 x5 = mgru x0 x1 x2 x3 x4 x5 := by
  funext i
  obtain ⟨b, s, n, rfl⟩ : ∃ (b : Fin 8) (s : Fin 2048) (n : Fin 1024), i = ix3 b s n := ⟨i 0, i 1, i 2, eq_ix3 i⟩
  rw [val_main_v22_apply, val_main_v20_apply, val_main_v19_apply, val_main_v18_apply, val_main_cst_1_apply, val_main_v21_apply,
    gate_eq, cand_eq]
  rfl

end Cert.ReferenceIdeal.RefValue

end
-- ==== Proof.lean ====
/-
  A minimal gated recurrent cell: the blocked program against the plain one, over the extended reals.

  Both programs take x, h of shape [8, 2048, 1024], weights W1, W2 of shape [1024, 2048] and biases b1, b2 of shape
  [1024], and return, for every row (b, s) and hidden unit n,
      gate  = sigmoid ( (x ‖ h) · W1[n] + b1[n] )
      cand  = tanh    ( (x ‖ gate ∘ h) · W2[n] + b2[n] )
      out   = (1 - gate) · h + gate · cand .
  The plain program joins the row (x ‖ h) and contracts all 2048 positions at once, and spells the sigmoid as
  1 / (1 + e^-z). The blocked program never joins: it cuts W1 and W2 into their two column halves, transposes them,
  and on blocks of 512 flattened rows adds the product with the x half to the product with the h half; its sigmoid is
  one operation. On the extended reals a sum over 2048 positions is the sum of its two halves (addition is
  commutative and associative there, infinities included), the one-operation sigmoid is by definition
  1 / (1 + e^-z), the literal 1.0 is the number 1, and a change of float format is the identity; so the two results are
  the same function of the arguments, entry by entry, and no finiteness of the inputs is used for that.
  The three frames are the generated ones (the plain program's is its generated run with the result dropped); the
  idealization rewrote nothing, so what it must preserve is trivial.
-/
import proofs.«179924_j62380105008298_1_alg».proof.Defs
import proofs.«179924_j62380105008298_1_alg».proof.Proof.Gen.Kernel
import proofs.«179924_j62380105008298_1_alg».proof.Proof.Gen.Kernel.Skeleton
import proofs.«179924_j62380105008298_1_alg».proof.Proof.Gen.Kernel.Launch
import proofs.«179924_j62380105008298_1_alg».proof.Proof.Gen.Kernel.Points
import proofs.«179924_j62380105008298_1_alg».proof.Proof.Gen.Kernel.Frame
import proofs.«179924_j62380105008298_1_alg».proof.Proof.Gen.KernelIdeal
import proofs.«179924_j62380105008298_1_alg».proof.Proof.Gen.KernelIdeal.Skeleton
import proofs.«179924_j62380105008298_1_alg».proof.Proof.Gen.KernelIdeal.Launch
import proofs.«179924_j62380105008298_1_alg».proof.Proof.Gen.KernelIdeal.Points
import proofs.«179924_j62380105008298_1_alg».proof.Proof.Gen.KernelIdeal.Frame
import proofs.«179924_j62380105008298_1_alg».proof.Proof.Gen.ReferenceIdeal
import proofs.«179924_j62380105008298_1_alg».proof.Proof.Gen.ReferenceIdeal.Run
import proofs.«179924_j62380105008298_1_alg».proof.Proof.Gen.ReferenceIdeal.Read
import proofs.«179924_j62380105008298_1_alg».proof.Proof.Gen.Pre_finite_inputs
import proofs.«179924_j62380105008298_1_alg».proof.Proof.KernelValue
import proofs.«179924_j62380105008298_1_alg».proof.Proof.RefValue
import Idealize.ShloMosaic.Adequacy
import Idealize.ShloMosaic.Init

noncomputable section

namespace Cert.Proof

open Idealize.ShloMosaic Idealize.ShloMosaic.TcCoe Idealize.SL.Sem

/-- The blocked program runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The plain program runs and leaves its arguments as they were: its run, with what it says of the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the six arguments both programs end with the cell of those arguments in their result. -/
theorem algebraic : Cert.algebraic_KernelIdeal_ReferenceIdeal := by
  intro m ρ m' ρ' _ hagree
  refine ⟨fun c => Cert.MGru.mgru (Cert.KernelIdeal.KValue.aX m c) (Cert.KernelIdeal.KValue.aH m c) (Cert.KernelIdeal.KValue.aW1 m c)
      (Cert.KernelIdeal.KValue.ab1 m c) (Cert.KernelIdeal.KValue.aW2 m c) (Cert.KernelIdeal.KValue.ab2 m c),
    fun c => Cert.MGru.mgru (Cert.KernelIdeal.KValue.aX m c) (Cert.KernelIdeal.KValue.aH m c) (Cert.KernelIdeal.KValue.aW1 m c)
      (Cert.KernelIdeal.KValue.ab1 m c) (Cert.KernelIdeal.KValue.aW2 m c) (Cert.KernelIdeal.KValue.ab2 m c), ?_, ?_⟩
  · exact (θ_run Cert.KernelIdeal.defs _ _).mono (fun _ h c => ⟨(h c).1, (h c).1, (h c).2⟩) (Cert.KernelIdeal.KValue.run m ρ)
  · refine (θ_run Cert.ReferenceIdeal.defs _ _).mono (fun _ h c => ?_) (Cert.ReferenceIdeal.Value.run (F := Ideal) m' ρ')
    have e := (h c).1.trans ((Cert.ReferenceIdeal.Read.val_main_v22_eq _ _ _ _ _ _).trans
      (Cert.ReferenceIdeal.RefValue.reference_eq _ _ _ _ _ _))
    rw [(hagree c).1, (hagree c).2.1, (hagree c).2.2.1, (hagree c).2.2.2.1, (hagree c).2.2.2.2.1, (hagree c).2.2.2.2.2] at e
    exact ⟨e, e, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
